-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S64x256 .f32) (main_arg3 : FVec F S64 .f32) (main_arg4 : FVec F S64x256 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S256x64 : Shape := ⟨2, ![256, 64]⟩
abbrev S256x128 : Shape := ⟨2, ![256, 128]⟩
abbrev S128 : Shape := ⟨1, ![128]⟩
abbrev S1x128 : Shape := ⟨2, ![1, 128]⟩
abbrev S100000x64 : Shape := ⟨2, ![100000, 64]⟩
abbrev S2000x256 : Shape := ⟨2, ![2000, 256]⟩
abbrev S2000x64 : Shape := ⟨2, ![2000, 64]⟩
abbrev S2000x128 : Shape := ⟨2, ![2000, 128]⟩
abbrev S2000 : Shape := ⟨1, ![2000]⟩
abbrev S2000x1 : Shape := ⟨2, ![2000, 1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩

abbrev nBuf : Space → Nat
  | .hbm => 123
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S64x256, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S256x64, .f32⟩
  | .hbm, ⟨7, _⟩ => ⟨S256x64, .f32⟩
  | .hbm, ⟨8, _⟩ => ⟨S256x128, .f32⟩
  | .hbm, ⟨9, _⟩ => ⟨S128, .f32⟩
  | .hbm, ⟨10, _⟩ => ⟨S1x128, .f32⟩
  | .hbm, ⟨11, _⟩ => ⟨S100000x64, .f32⟩
  | .hbm, ⟨12, _⟩ => ⟨S100000x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000, .i32⟩
  | .hbm, ⟨18, _⟩ => ⟨S1700000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x1600000, .i32⟩
  | .hbm, ⟨69, _⟩ => ⟨S1600000, .i32⟩
  | .hbm, ⟨70, _⟩ => ⟨S1x1600000, .i32⟩
  | .hbm, ⟨71, _⟩ => ⟨S1600000, .i32⟩
  | .hbm, ⟨72, _⟩ => ⟨S100000, .i32⟩
  | .hbm, ⟨73, _⟩ => ⟨S1700000, .i32⟩
  | .hbm, ⟨74, _⟩ => ⟨S1700000, .i32⟩
  | .hbm, ⟨75, _⟩ => ⟨S_, .f32⟩
  | .hbm, ⟨76, _⟩ => ⟨S1700000, .f32⟩
  | .hbm, ⟨77, _⟩ => ⟨S_, .f32⟩
  | .hbm, ⟨78, _⟩ => ⟨S100000, .f32⟩
  | .hbm, ⟨79, _⟩ => ⟨S1700000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .i1⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x64, .f32⟩
  | .hbm, ⟨116, _⟩ => ⟨S1700000x1, .f32⟩
  | .hbm, ⟨117, _⟩ => ⟨S1700000x64, .f32⟩
  | .hbm, ⟨118, _⟩ => ⟨S1700000x64, .f32⟩
  | .hbm, ⟨119, _⟩ => ⟨S_, .f32⟩
  | .hbm, ⟨120, _⟩ => ⟨S100000x64, .f32⟩
  | .hbm, ⟨121, _⟩ => ⟨S1700000x1, .i32⟩
  | .hbm, ⟨122, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_call1_v0 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_15 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x256_S256x64_1_0 : S64x256.Transposes [1, 0] S256x64
  concatenates_S256x64_S256x64_S256x128_d1 : Shape.Concatenates [S256x64, S256x64] S256x128 1
  concatenates_S64_S64_S128_d0 : Shape.Concatenates [S64, S64] S128 0
  bcast_S128_S1x128_1 : S128.BroadcastsInDim S1x128 (![1] : Fin 1 → Fin S1x128.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2000x128_o0_0_S2000x64 : S2000x128.Slices ![0, 0] S2000x64
  slices_S2000x128_o0_64_S2000x64 : S2000x128.Slices ![0, 64] S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S2000x256_S256x128_S2000x128_1_0_0_1_n_n_wf : DotDims.WF S2000x256 S256x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S2000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S256x64 : Shape := ⟨2, ![256, 64]⟩
abbrev S100000x64 : Shape := ⟨2, ![100000, 64]⟩
abbrev S1x64 : Shape := ⟨2, ![1, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x1 : Shape := ⟨2, ![100000, 1]⟩

abbrev nBuf : Space → Nat
  | .hbm => 139
  | .vmem => 0
  | .smem => 0
  | _ => 0

abbrev hbmTy0_0 (i : Nat) : BufTy := match i % 128 with
  | 0 => ⟨S100000x256, .f32⟩
  | 1 => ⟨S2x1600000, .i32⟩
  | 2 => ⟨S64x256, .f32⟩
  | 3 => ⟨S64, .f32⟩
  | 4 => ⟨S64x256, .f32⟩
  | 5 => ⟨S64, .f32⟩
  | 6 => ⟨S256x64, .f32⟩
  | 7 => ⟨S100000x64, .f32⟩
  | 8 => ⟨S1x64, .f32⟩
  | 9 => ⟨S100000x64, .f32⟩
  | 10 => ⟨S100000x64, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S256x64, .f32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S100000, .f32⟩
  | 74 => ⟨S100000x1, .f32⟩
  | 75 => ⟨S100000x1, .f32⟩
  | 76 => ⟨S_, .f32⟩
  | 77 => ⟨S100000x1, .f32⟩
  | 78 => ⟨S100000x1, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x1600000, .i32⟩
  | 85 => ⟨S1600000, .i32⟩
  | 86 => ⟨S1x1600000, .i32⟩
  | 87 => ⟨S1600000, .i32⟩
  | 88 => ⟨S100000, .i32⟩
  | 89 => ⟨S1700000, .i32⟩
  | 90 => ⟨S1700000, .i32⟩
  | 91 => ⟨S_, .f32⟩
  | 92 => ⟨S1700000, .f32⟩
  | 93 => ⟨S_, .f32⟩
  | 94 => ⟨S100000, .f32⟩
  | 95 => ⟨S1700000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S100000, .f32⟩
  | 103 => ⟨S100000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x256, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x1, .f32⟩
  | 5 => ⟨S1700000x64, .f32⟩
  | 6 => ⟨S1700000x64, .f32⟩
  | 7 => ⟨S_, .f32⟩
  | 8 => ⟨S100000x64, .f32⟩
  | 9 => ⟨S1700000x1, .i32⟩
  | 10 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call0_v0 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_v0 : Ref sig .tc := ⟨.hbm, 71, rfl⟩
abbrev main_call1_cst : Ref sig .tc := ⟨.hbm, 72, rfl⟩
abbrev main_call1_v1 : Ref sig .tc := ⟨.hbm, 73, rfl⟩
abbrev main_call1_v2 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_call2_v0 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_17 : Ref sig .tc := ⟨.hbm, 113, rfl⟩
abbrev main_v82 : Ref sig .tc := ⟨.hbm, 114, rfl⟩
abbrev main_v83 : Ref sig .tc := ⟨.hbm, 115, rfl⟩
abbrev main_c_18 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_19 : Ref sig .tc := ⟨.hbm, 123, rfl⟩
abbrev main_v90 : Ref sig .tc := ⟨.hbm, 124, rfl⟩
abbrev main_v91 : Ref sig .tc := ⟨.hbm, 125, rfl⟩
abbrev main_c_20 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]

class Facts₀ : Prop where
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelAround.lean ====
/-
  The frame of the projection kernel's program: the six argument arrays end as they were launched, and what the two
  result arrays of the kernel hold when the host lines after it begin.

  The program is five host lines (two transposes, the two weight matrices laid side by side into one 256 x 128 matrix,
  the two biases joined into one row of 128), one pallas_call over 50 row blocks of 2000 rows, and then the graph
  propagation of both results as host lines. A grid point reads its 2000 x 256 block of the node features, the whole
  256 x 128 weight matrix and the 1 x 128 bias row, and stores two 2000 x 64 blocks: the left half of
  (block x weights + bias), and the right half with every row scaled to length 1.8. Each store covers its whole
  buffer, so what a buffer holds after the body is one function of the three blocks read. The host lines after the
  kernel write only buffers of their own, never an argument and never an array the kernel reads or writes.
-/
import proofs.«100768_j48739288875184_1_alg».proof.Proof.Gen.Kernel.Launch
import proofs.«100768_j48739288875184_1_alg».proof.Proof.Gen.Kernel.Skeleton
import proofs.«100768_j48739288875184_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- The host lines after the kernel, stretch by stretch: the propagation of the first result, then of the second, the
    two outlined selects standing as stretches of their own. -/
abbrev later : List (List (HloOp τ sig (Elt F))) := [hostOps1, hostOps1_1, hostOps1_2, hostOps1_3, hostOps1_4]

/-- What a core's buffers hold when the kernel is entered: the launch contents after the five lines before it. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- The program is the five lines, the kernel, then the later lines: it runs as the kernel continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact fresh0) main_chain

/-- The later lines touch only unscoped TensorCore buffers: the kernel's arrays and the buffers that bypass it. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- A buffer none of the later lines writes, line by line: every line writes its own result buffer, and the
    buffer in question is none of those. -/
local macro "no_later_write" : tactic => `(tactic| (
  simp only [hostOps1, hostOps1_1, hostOps1_2, hostOps1_3, hostOps1_4, List.flatten_cons, List.flatten_nil, List.append_nil,
    List.cons_append, List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- The same of the five lines before the kernel. -/
local macro "no_early_write" : tactic => `(tactic| (
  simp only [hostOps0, List.flatten_cons, List.flatten_nil, List.append_nil, List.cons_append, List.nil_append, List.Forall,
    StableHlo.nullary_writes, StableHlo.unary_writes, StableHlo.binary_writes, StableHlo.ternary_writes, StableHlo.reshape_writes,
    Finset.mem_singleton]
  repeat' apply And.intro
  all_goals exact StableHlo.devRef_ne_of_ne (by decide)))

set_option maxHeartbeats 4000000 in
theorem later_keeps_arg0 : ((later (F := F)).flatten).Forall fun op => Proc.devRef (τ := τ) .tc main_arg0 ∉ op.writes := by no_later_write
set_option maxHeartbeats 4000000 in
theorem later_keeps_arg1 : ((later (F := F)).flatten).Forall fun op => Proc.devRef (τ := τ) .tc main_arg1 ∉ op.writes := by no_later_write
set_option maxHeartbeats 4000000 in
theorem later_keeps_arg2 : ((later (F := F)).flatten).Forall fun op => Proc.devRef (τ := τ) .tc main_arg2 ∉ op.writes := by no_later_write
set_option maxHeartbeats 4000000 in
theorem later_keeps_arg3 : ((later (F := F)).flatten).Forall fun op => Proc.devRef (τ := τ) .tc main_arg3 ∉ op.writes := by no_later_write
set_option maxHeartbeats 4000000 in
theorem later_keeps_arg4 : ((later (F := F)).flatten).Forall fun op => Proc.devRef (τ := τ) .tc main_arg4 ∉ op.writes := by no_later_write
set_option maxHeartbeats 4000000 in
theorem later_keeps_arg5 : ((later (F := F)).flatten).Forall fun op => Proc.devRef (τ := τ) .tc main_arg5 ∉ op.writes := by no_later_write
set_option maxHeartbeats 4000000 in
theorem later_keeps_v2 : ((later (F := F)).flatten).Forall fun op => Proc.devRef (τ := τ) .tc main_v2 ∉ op.writes := by no_later_write
set_option maxHeartbeats 4000000 in
theorem later_keeps_v4 : ((later (F := F)).flatten).Forall fun op => Proc.devRef (τ := τ) .tc main_v4 ∉ op.writes := by no_later_write
set_option maxHeartbeats 4000000 in
theorem later_keeps_v5_0 : ((later (F := F)).flatten).Forall fun op => Proc.devRef (τ := τ) .tc main_v5_0 ∉ op.writes := by no_later_write
set_option maxHeartbeats 4000000 in
theorem later_keeps_v5_1 : ((later (F := F)).flatten).Forall fun op => Proc.devRef (τ := τ) .tc main_v5_1 ∉ op.writes := by no_later_write

/-- A fact about every line of the flattened list holds of every line of every stretch. -/
theorem of_flat {p : HloOp τ sig (Elt F) → Prop} (h : ((later (F := F)).flatten).Forall p) :
    ∀ ops ∈ (later : List (List (HloOp τ sig (Elt F)))), ∀ op ∈ ops, p op :=
  fun ops ho op hop => List.forall_iff_forall_mem.mp h op (List.mem_flatten.mpr ⟨ops, ho, hop⟩)

/-- No later line writes an array of the kernel. -/
theorem later_keeps : ∀ ops ∈ (later : List (List (HloOp τ sig (Elt F)))), ∀ op ∈ ops,
    ∀ w, Proc.devRef .tc (Pipeline.arrRef spec0 w) ∉ op.writes := by
  intro ops hops op hop w
  fin_cases w
  · exact of_flat later_keeps_arg0 ops hops op hop
  · exact of_flat later_keeps_v2 ops hops op hop
  · exact of_flat later_keeps_v4 ops hops op hop
  · exact of_flat later_keeps_v5_0 ops hops op hop
  · exact of_flat later_keeps_v5_1 ops hops op hop

/-! ## The arguments end as launched -/

set_option maxHeartbeats 1000000 in
theorem V_arg0 (c : Dev nD) : V m c main_arg0 = m ((c : Thread nD τ).loc main_arg0) :=
  StableHlo.after_of_forall_not_mem (b := Proc.devRef .tc main_arg0) _ _ (List.forall_iff_forall_mem.mp (by no_early_write))
set_option maxHeartbeats 1000000 in
theorem V_arg1 (c : Dev nD) : V m c main_arg1 = m ((c : Thread nD τ).loc main_arg1) :=
  StableHlo.after_of_forall_not_mem (b := Proc.devRef .tc main_arg1) _ _ (List.forall_iff_forall_mem.mp (by no_early_write))
set_option maxHeartbeats 1000000 in
theorem V_arg2 (c : Dev nD) : V m c main_arg2 = m ((c : Thread nD τ).loc main_arg2) :=
  StableHlo.after_of_forall_not_mem (b := Proc.devRef .tc main_arg2) _ _ (List.forall_iff_forall_mem.mp (by no_early_write))
set_option maxHeartbeats 1000000 in
theorem V_arg3 (c : Dev nD) : V m c main_arg3 = m ((c : Thread nD τ).loc main_arg3) :=
  StableHlo.after_of_forall_not_mem (b := Proc.devRef .tc main_arg3) _ _ (List.forall_iff_forall_mem.mp (by no_early_write))
set_option maxHeartbeats 1000000 in
theorem V_arg4 (c : Dev nD) : V m c main_arg4 = m ((c : Thread nD τ).loc main_arg4) :=
  StableHlo.after_of_forall_not_mem (b := Proc.devRef .tc main_arg4) _ _ (List.forall_iff_forall_mem.mp (by no_early_write))
set_option maxHeartbeats 1000000 in
theorem V_arg5 (c : Dev nD) : V m c main_arg5 = m ((c : Thread nD τ).loc main_arg5) :=
  StableHlo.after_of_forall_not_mem (b := Proc.devRef .tc main_arg5) _ _ (List.forall_iff_forall_mem.mp (by no_early_write))

/-- A buffer that is no array of the kernel and that no later line writes holds, after the later lines, what it held
    when the kernel was entered. -/
theorem after_later_of (dats : (p : Fin _) → (c : Dev nD) → Dat τ (Elt F) Unit ℕ (UR sig nD τ) ℕ (cfgs p) c) (c : Dev nD)
    (b : Ref sig .tc) (hb : ((later (F := F)).flatten).Forall fun op => Proc.devRef (τ := τ) .tc b ∉ op.writes)
    (hw : ∀ w, Pipeline.arrRef spec0 w ≠ b) :
    Pipeline.afterTail₀ cfgs dats 0 (V0 m) later c b = V m c b := by
  unfold Pipeline.afterTail₀
  rw [StableHlo.after_of_forall_not_mem (b := Proc.devRef .tc b) _ _ (List.forall_iff_forall_mem.mp hb),
    Pipeline.withArrays_of_ne _ c (V0 m c) _ b hw]

theorem W_arg1 (dats : (p : Fin _) → (c : Dev nD) → Dat τ (Elt F) Unit ℕ (UR sig nD τ) ℕ (cfgs p) c) (c : Dev nD) :
    Pipeline.afterTail₀ cfgs dats 0 (V0 m) later c main_arg1 = m ((c : Thread nD τ).loc main_arg1) :=
  (after_later_of m dats c main_arg1 later_keeps_arg1 (by decide)).trans (V_arg1 m c)
theorem W_arg2 (dats : (p : Fin _) → (c : Dev nD) → Dat τ (Elt F) Unit ℕ (UR sig nD τ) ℕ (cfgs p) c) (c : Dev nD) :
    Pipeline.afterTail₀ cfgs dats 0 (V0 m) later c main_arg2 = m ((c : Thread nD τ).loc main_arg2) :=
  (after_later_of m dats c main_arg2 later_keeps_arg2 (by decide)).trans (V_arg2 m c)
theorem W_arg3 (dats : (p : Fin _) → (c : Dev nD) → Dat τ (Elt F) Unit ℕ (UR sig nD τ) ℕ (cfgs p) c) (c : Dev nD) :
    Pipeline.afterTail₀ cfgs dats 0 (V0 m) later c main_arg3 = m ((c : Thread nD τ).loc main_arg3) :=
  (after_later_of m dats c main_arg3 later_keeps_arg3 (by decide)).trans (V_arg3 m c)
theorem W_arg4 (dats : (p : Fin _) → (c : Dev nD) → Dat τ (Elt F) Unit ℕ (UR sig nD τ) ℕ (cfgs p) c) (c : Dev nD) :
    Pipeline.afterTail₀ cfgs dats 0 (V0 m) later c main_arg4 = m ((c : Thread nD τ).loc main_arg4) :=
  (after_later_of m dats c main_arg4 later_keeps_arg4 (by decide)).trans (V_arg4 m c)
theorem W_arg5 (dats : (p : Fin _) → (c : Dev nD) → Dat τ (Elt F) Unit ℕ (UR sig nD τ) ℕ (cfgs p) c) (c : Dev nD) :
    Pipeline.afterTail₀ cfgs dats 0 (V0 m) later c main_arg5 = m ((c : Thread nD τ).loc main_arg5) :=
  (after_later_of m dats c main_arg5 later_keeps_arg5 (by decide)).trans (V_arg5 m c)

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The node features' staging buffer holds the point's row block at every point, -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the weights' the whole weight matrix, fetched at the first point and kept since, -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the bias row's the whole row likewise. -/
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

abbrev rX : Rect S2000x256 := Rect.unit (s := S2000x256) ![0, 0] S2000x256.size inb_S2000x256_S2000x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S2000x64 := Rect.unit (s := S2000x64) ![0, 0] S2000x64.size inb_S2000x64_S2000x64_0_0

/-- The first result buffer after the body: one store over the whole buffer, of the left half of block x weights + bias. -/
def outLin (x : Vec F S2000x256 .f32) (w : Vec F S256x128 .f32) (b : Vec F S1x128 .f32) : Vec F S2000x64 .f32 :=
  View.canon [⟨rO, k0_pay2 (View.ld x rX) (View.ld w rW) (View.ld b rB)⟩]
/-- The second: one store over the whole buffer, of the right half with each row scaled to length 1.8. -/
def outUnit (x : Vec F S2000x256 .f32) (w : Vec F S256x128 .f32) (b : Vec F S1x128 .f32) : Vec F S2000x64 .f32 :=
  View.canon [⟨rO, k0_pay3 (View.ld x rX) (View.ld w rW) (View.ld b rB)⟩]

/-- One store over the whole rectangle covers the buffer. -/
theorem cover_whole (p0 : Vec F S2000x64 .f32) (y : S2000x64.Idx) :
    ∃ pc ∈ ([⟨rO, p0⟩] : List (View.Piece (Elt F) S2000x64 .f32)), y ∈ pc.1.set :=
  View.cover_of_tiled [⟨rO, p0⟩] S2000x64.size (by rfl) y

/-! ## The body's triple -/

set_option maxHeartbeats 4000000 in
/-- The body on whole staging memrefs, the three inputs' at read contents and the two results' at anything, runs to the
    continuation with the inputs' as they were and the results' at `outLin` and `outUnit` of the inputs'. (Each result
    buffer is loaded once before its store; the value loaded is not used.) -/
theorem sound_kernel (c : Dev nD) (E : Set ℕ) (i : grid0.Coords)
    (arg1 : Memref sig .tc .vmem S2000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S2000x64 .f32) (harg4 : arg4.IsWhole)
    (arg5 : Memref sig .tc .vmem S2000x64 .f32) (harg5 : arg5.IsWhole)
    (x : Vec F S2000x256 .f32) (w : Vec F S256x128 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (outLin x w b) ∗ owns (c : Thread nD τ) arg5 fullShare (outUnit x w b)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  · iexists _; isplitr
    swap; · iexact H4
    ipureintro
    exact View.read_writes_eq_canon _ _ _ (cover_whole _)

/-! ## The proof data -/

/-- The arrays as the kernel finds them; after the body at point `t` each input buffer at its block and the two result
    buffers at `outLin` and `outUnit` of the three blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outLin (iblk m c 0 t) (iblk m c 1 t) (iblk m c 2 t)
    | ⟨4, _⟩ => outUnit (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_lin (c : Dev nD) (t : Fin cfg0.N) : (dats m 0 c).after 3 t = outLin (iblk m c 0 t) (iblk m c 1 t) (iblk m c 2 t) := by dsimp only [dats]
theorem after_unit (c : Dev nD) (t : Fin cfg0.N) : (dats m 0 c).after 4 t = outUnit (iblk m c 0 t) (iblk m c 1 t) (iblk m c 2 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_lin, after_unit]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end each array of the kernel holds what the proof data
    say, and every other unscoped buffer what the later lines leave in it. -/
theorem run_main : θ_run defs (onTc (τ := τ) (main (F := F))) (s₀ m ρ) (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The six argument arrays end as launched: the node features by the kernel's own frame (a window the kernel only
    reads), the other five because nothing writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_arg0 m c))),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c),
     ((h c).2 main_arg4 (Pipeline.mem_restRefs_of main_arg4 (by decide) (by decide))).trans (W_arg4 m (dats m) c),
     ((h c).2 main_arg5 (Pipeline.mem_restRefs_of main_arg5 (by decide) (by decide))).trans (W_arg5 m (dats m) c)⟩) (run_main m ρ)

end Cert.Kernel.Around

end
-- ==== Proof.KernelIdealAround.lean ====
/-
  The frame of the projection kernel's program: the six argument arrays end as they were launched, and what the two
  result arrays of the kernel hold when the host lines after it begin.

  The program is five host lines (two transposes, the two weight matrices laid side by side into one 256 x 128 matrix,
  the two biases joined into one row of 128), one pallas_call over 50 row blocks of 2000 rows, and then the graph
  propagation of both results as host lines. A grid point reads its 2000 x 256 block of the node features, the whole
  256 x 128 weight matrix and the 1 x 128 bias row, and stores two 2000 x 64 blocks: the left half of
  (block x weights + bias), and the right half with every row scaled to length 1.8. Each store covers its whole
  buffer, so what a buffer holds after the body is one function of the three blocks read. The host lines after the
  kernel write only buffers of their own, never an argument and never an array the kernel reads or writes.
-/
import proofs.«100768_j48739288875184_1_alg».proof.Proof.Gen.KernelIdeal.Launch
import proofs.«100768_j48739288875184_1_alg».proof.Proof.Gen.KernelIdeal.Skeleton
import proofs.«100768_j48739288875184_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- The host lines after the kernel, stretch by stretch: the propagation of the first result, then of the second, the
    two outlined selects standing as stretches of their own. -/
abbrev later : List (List (HloOp τ sig (Elt F))) := [hostOps1, hostOps1_1, hostOps1_2, hostOps1_3, hostOps1_4]

/-- What a core's buffers hold when the kernel is entered: the launch contents after the five lines before it. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- The program is the five lines, the kernel, then the later lines: it runs as the kernel continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact fresh0) main_chain

/-- The later lines touch only unscoped TensorCore buffers: the kernel's arrays and the buffers that bypass it. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- A buffer none of the later lines writes, line by line: every line writes its own result buffer, and the
    buffer in question is none of those. -/
local macro "no_later_write" : tactic => `(tactic| (
  simp only [hostOps1, hostOps1_1, hostOps1_2, hostOps1_3, hostOps1_4, List.flatten_cons, List.flatten_nil, List.append_nil,
    List.cons_append, List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- The same of the five lines before the kernel. -/
local macro "no_early_write" : tactic => `(tactic| (
  simp only [hostOps0, List.flatten_cons, List.flatten_nil, List.append_nil, List.cons_append, List.nil_append, List.Forall,
    StableHlo.nullary_writes, StableHlo.unary_writes, StableHlo.binary_writes, StableHlo.ternary_writes, StableHlo.reshape_writes,
    Finset.mem_singleton]
  repeat' apply And.intro
  all_goals exact StableHlo.devRef_ne_of_ne (by decide)))

set_option maxHeartbeats 4000000 in
theorem later_keeps_arg0 : ((later (F := F)).flatten).Forall fun op => Proc.devRef (τ := τ) .tc main_arg0 ∉ op.writes := by no_later_write
set_option maxHeartbeats 4000000 in
theorem later_keeps_arg1 : ((later (F := F)).flatten).Forall fun op => Proc.devRef (τ := τ) .tc main_arg1 ∉ op.writes := by no_later_write
set_option maxHeartbeats 4000000 in
theorem later_keeps_arg2 : ((later (F := F)).flatten).Forall fun op => Proc.devRef (τ := τ) .tc main_arg2 ∉ op.writes := by no_later_write
set_option maxHeartbeats 4000000 in
theorem later_keeps_arg3 : ((later (F := F)).flatten).Forall fun op => Proc.devRef (τ := τ) .tc main_arg3 ∉ op.writes := by no_later_write
set_option maxHeartbeats 4000000 in
theorem later_keeps_arg4 : ((later (F := F)).flatten).Forall fun op => Proc.devRef (τ := τ) .tc main_arg4 ∉ op.writes := by no_later_write
set_option maxHeartbeats 4000000 in
theorem later_keeps_arg5 : ((later (F := F)).flatten).Forall fun op => Proc.devRef (τ := τ) .tc main_arg5 ∉ op.writes := by no_later_write
set_option maxHeartbeats 4000000 in
theorem later_keeps_v2 : ((later (F := F)).flatten).Forall fun op => Proc.devRef (τ := τ) .tc main_v2 ∉ op.writes := by no_later_write
set_option maxHeartbeats 4000000 in
theorem later_keeps_v4 : ((later (F := F)).flatten).Forall fun op => Proc.devRef (τ := τ) .tc main_v4 ∉ op.writes := by no_later_write
set_option maxHeartbeats 4000000 in
theorem later_keeps_v5_0 : ((later (F := F)).flatten).Forall fun op => Proc.devRef (τ := τ) .tc main_v5_0 ∉ op.writes := by no_later_write
set_option maxHeartbeats 4000000 in
theorem later_keeps_v5_1 : ((later (F := F)).flatten).Forall fun op => Proc.devRef (τ := τ) .tc main_v5_1 ∉ op.writes := by no_later_write

/-- A fact about every line of the flattened list holds of every line of every stretch. -/
theorem of_flat {p : HloOp τ sig (Elt F) → Prop} (h : ((later (F := F)).flatten).Forall p) :
    ∀ ops ∈ (later : List (List (HloOp τ sig (Elt F)))), ∀ op ∈ ops, p op :=
  fun ops ho op hop => List.forall_iff_forall_mem.mp h op (List.mem_flatten.mpr ⟨ops, ho, hop⟩)

/-- No later line writes an array of the kernel. -/
theorem later_keeps : ∀ ops ∈ (later : List (List (HloOp τ sig (Elt F)))), ∀ op ∈ ops,
    ∀ w, Proc.devRef .tc (Pipeline.arrRef spec0 w) ∉ op.writes := by
  intro ops hops op hop w
  fin_cases w
  · exact of_flat later_keeps_arg0 ops hops op hop
  · exact of_flat later_keeps_v2 ops hops op hop
  · exact of_flat later_keeps_v4 ops hops op hop
  · exact of_flat later_keeps_v5_0 ops hops op hop
  · exact of_flat later_keeps_v5_1 ops hops op hop

/-! ## The arguments end as launched -/

set_option maxHeartbeats 1000000 in
theorem V_arg0 (c : Dev nD) : V m c main_arg0 = m ((c : Thread nD τ).loc main_arg0) :=
  StableHlo.after_of_forall_not_mem (b := Proc.devRef .tc main_arg0) _ _ (List.forall_iff_forall_mem.mp (by no_early_write))
set_option maxHeartbeats 1000000 in
theorem V_arg1 (c : Dev nD) : V m c main_arg1 = m ((c : Thread nD τ).loc main_arg1) :=
  StableHlo.after_of_forall_not_mem (b := Proc.devRef .tc main_arg1) _ _ (List.forall_iff_forall_mem.mp (by no_early_write))
set_option maxHeartbeats 1000000 in
theorem V_arg2 (c : Dev nD) : V m c main_arg2 = m ((c : Thread nD τ).loc main_arg2) :=
  StableHlo.after_of_forall_not_mem (b := Proc.devRef .tc main_arg2) _ _ (List.forall_iff_forall_mem.mp (by no_early_write))
set_option maxHeartbeats 1000000 in
theorem V_arg3 (c : Dev nD) : V m c main_arg3 = m ((c : Thread nD τ).loc main_arg3) :=
  StableHlo.after_of_forall_not_mem (b := Proc.devRef .tc main_arg3) _ _ (List.forall_iff_forall_mem.mp (by no_early_write))
set_option maxHeartbeats 1000000 in
theorem V_arg4 (c : Dev nD) : V m c main_arg4 = m ((c : Thread nD τ).loc main_arg4) :=
  StableHlo.after_of_forall_not_mem (b := Proc.devRef .tc main_arg4) _ _ (List.forall_iff_forall_mem.mp (by no_early_write))
set_option maxHeartbeats 1000000 in
theorem V_arg5 (c : Dev nD) : V m c main_arg5 = m ((c : Thread nD τ).loc main_arg5) :=
  StableHlo.after_of_forall_not_mem (b := Proc.devRef .tc main_arg5) _ _ (List.forall_iff_forall_mem.mp (by no_early_write))

/-- A buffer that is no array of the kernel and that no later line writes holds, after the later lines, what it held
    when the kernel was entered. -/
theorem after_later_of (dats : (p : Fin _) → (c : Dev nD) → Dat τ (Elt F) Unit ℕ (UR sig nD τ) ℕ (cfgs p) c) (c : Dev nD)
    (b : Ref sig .tc) (hb : ((later (F := F)).flatten).Forall fun op => Proc.devRef (τ := τ) .tc b ∉ op.writes)
    (hw : ∀ w, Pipeline.arrRef spec0 w ≠ b) :
    Pipeline.afterTail₀ cfgs dats 0 (V0 m) later c b = V m c b := by
  unfold Pipeline.afterTail₀
  rw [StableHlo.after_of_forall_not_mem (b := Proc.devRef .tc b) _ _ (List.forall_iff_forall_mem.mp hb),
    Pipeline.withArrays_of_ne _ c (V0 m c) _ b hw]

theorem W_arg1 (dats : (p : Fin _) → (c : Dev nD) → Dat τ (Elt F) Unit ℕ (UR sig nD τ) ℕ (cfgs p) c) (c : Dev nD) :
    Pipeline.afterTail₀ cfgs dats 0 (V0 m) later c main_arg1 = m ((c : Thread nD τ).loc main_arg1) :=
  (after_later_of m dats c main_arg1 later_keeps_arg1 (by decide)).trans (V_arg1 m c)
theorem W_arg2 (dats : (p : Fin _) → (c : Dev nD) → Dat τ (Elt F) Unit ℕ (UR sig nD τ) ℕ (cfgs p) c) (c : Dev nD) :
    Pipeline.afterTail₀ cfgs dats 0 (V0 m) later c main_arg2 = m ((c : Thread nD τ).loc main_arg2) :=
  (after_later_of m dats c main_arg2 later_keeps_arg2 (by decide)).trans (V_arg2 m c)
theorem W_arg3 (dats : (p : Fin _) → (c : Dev nD) → Dat τ (Elt F) Unit ℕ (UR sig nD τ) ℕ (cfgs p) c) (c : Dev nD) :
    Pipeline.afterTail₀ cfgs dats 0 (V0 m) later c main_arg3 = m ((c : Thread nD τ).loc main_arg3) :=
  (after_later_of m dats c main_arg3 later_keeps_arg3 (by decide)).trans (V_arg3 m c)
theorem W_arg4 (dats : (p : Fin _) → (c : Dev nD) → Dat τ (Elt F) Unit ℕ (UR sig nD τ) ℕ (cfgs p) c) (c : Dev nD) :
    Pipeline.afterTail₀ cfgs dats 0 (V0 m) later c main_arg4 = m ((c : Thread nD τ).loc main_arg4) :=
  (after_later_of m dats c main_arg4 later_keeps_arg4 (by decide)).trans (V_arg4 m c)
theorem W_arg5 (dats : (p : Fin _) → (c : Dev nD) → Dat τ (Elt F) Unit ℕ (UR sig nD τ) ℕ (cfgs p) c) (c : Dev nD) :
    Pipeline.afterTail₀ cfgs dats 0 (V0 m) later c main_arg5 = m ((c : Thread nD τ).loc main_arg5) :=
  (after_later_of m dats c main_arg5 later_keeps_arg5 (by decide)).trans (V_arg5 m c)

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The node features' staging buffer holds the point's row block at every point, -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the weights' the whole weight matrix, fetched at the first point and kept since, -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the bias row's the whole row likewise. -/
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

abbrev rX : Rect S2000x256 := Rect.unit (s := S2000x256) ![0, 0] S2000x256.size inb_S2000x256_S2000x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S2000x64 := Rect.unit (s := S2000x64) ![0, 0] S2000x64.size inb_S2000x64_S2000x64_0_0

/-- The first result buffer after the body: one store over the whole buffer, of the left half of block x weights + bias. -/
def outLin (x : Vec F S2000x256 .f32) (w : Vec F S256x128 .f32) (b : Vec F S1x128 .f32) : Vec F S2000x64 .f32 :=
  View.canon [⟨rO, k0_pay2 (View.ld x rX) (View.ld w rW) (View.ld b rB)⟩]
/-- The second: one store over the whole buffer, of the right half with each row scaled to length 1.8. -/
def outUnit (x : Vec F S2000x256 .f32) (w : Vec F S256x128 .f32) (b : Vec F S1x128 .f32) : Vec F S2000x64 .f32 :=
  View.canon [⟨rO, k0_pay3 (View.ld x rX) (View.ld w rW) (View.ld b rB)⟩]

/-- One store over the whole rectangle covers the buffer. -/
theorem cover_whole (p0 : Vec F S2000x64 .f32) (y : S2000x64.Idx) :
    ∃ pc ∈ ([⟨rO, p0⟩] : List (View.Piece (Elt F) S2000x64 .f32)), y ∈ pc.1.set :=
  View.cover_of_tiled [⟨rO, p0⟩] S2000x64.size (by rfl) y

/-! ## The body's triple -/

set_option maxHeartbeats 4000000 in
/-- The body on whole staging memrefs, the three inputs' at read contents and the two results' at anything, runs to the
    continuation with the inputs' as they were and the results' at `outLin` and `outUnit` of the inputs'. (Each result
    buffer is loaded once before its store; the value loaded is not used.) -/
theorem sound_kernel (c : Dev nD) (E : Set ℕ) (i : grid0.Coords)
    (arg1 : Memref sig .tc .vmem S2000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S2000x64 .f32) (harg4 : arg4.IsWhole)
    (arg5 : Memref sig .tc .vmem S2000x64 .f32) (harg5 : arg5.IsWhole)
    (x : Vec F S2000x256 .f32) (w : Vec F S256x128 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (outLin x w b) ∗ owns (c : Thread nD τ) arg5 fullShare (outUnit x w b)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  · iexists _; isplitr
    swap; · iexact H4
    ipureintro
    exact View.read_writes_eq_canon _ _ _ (cover_whole _)

/-! ## The proof data -/

/-- The arrays as the kernel finds them; after the body at point `t` each input buffer at its block and the two result
    buffers at `outLin` and `outUnit` of the three blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outLin (iblk m c 0 t) (iblk m c 1 t) (iblk m c 2 t)
    | ⟨4, _⟩ => outUnit (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_lin (c : Dev nD) (t : Fin cfg0.N) : (dats m 0 c).after 3 t = outLin (iblk m c 0 t) (iblk m c 1 t) (iblk m c 2 t) := by dsimp only [dats]
theorem after_unit (c : Dev nD) (t : Fin cfg0.N) : (dats m 0 c).after 4 t = outUnit (iblk m c 0 t) (iblk m c 1 t) (iblk m c 2 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_lin, after_unit]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end each array of the kernel holds what the proof data
    say, and every other unscoped buffer what the later lines leave in it. -/
theorem run_main : θ_run defs (onTc (τ := τ) (main (F := F))) (s₀ m ρ) (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The six argument arrays end as launched: the node features by the kernel's own frame (a window the kernel only
    reads), the other five because nothing writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_arg0 m c))),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c),
     ((h c).2 main_arg4 (Pipeline.mem_restRefs_of main_arg4 (by decide) (by decide))).trans (W_arg4 m (dats m) c),
     ((h c).2 main_arg5 (Pipeline.mem_restRefs_of main_arg5 (by decide) (by decide))).trans (W_arg5 m (dats m) c)⟩) (run_main m ρ)

end Cert.KernelIdeal.Around

end
-- ==== Proof.KernelSpread.lean ====
/-
  The kernel program's two results are one propagation step over the graph applied to the two arrays the kernel wrote:
  the host lines after the kernel compute, from whatever the buffers hold when they start, the spread of the first
  array into one result buffer and the spread of the second into the other, reading the edge list and nothing else of
  the arguments. The step is carried as one function and never opened.
-/
import proofs.«100768_j48739288875184_1_alg».proof.Proof.KernelIdealAround
import Idealize.ShloMosaic.Lib.StableHlo.Run

noncomputable section

namespace Cert.KernelIdeal.Spread

open Cert.KernelIdeal Cert.KernelIdeal.Gen Cert.KernelIdeal.Around Idealize.ShloMosaic Idealize.ShloMosaic.TcCoe Idealize.SL.Sem Idealize.ShloMosaic.StableHlo

variable {F : FTy → Type} [FloatOps F]

set_option maxRecDepth 8192 in
/-- One propagation step over the graph with self-loops: every node's degree is counted (a scatter-add of ones over the
    edge targets and the nodes themselves), its inverse square root taken where the degree is positive, each edge's
    message is the source row of `h` scaled by the two ends' factors, and the messages are summed into their target rows.
    `e` is the 2 x E edge list; a negative index is first wrapped by the number of nodes. -/
def spread (h : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x64_S1700000x1_S1700000x64_1_0_n_n_0_1_164 h (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (constant S_ .f32 0x00000000#32))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (constant S_ .f32 0x00000000#32))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))

set_option maxRecDepth 8192 in
set_option maxHeartbeats 40000000 in
/-- From any contents `W`, the later lines leave in their first result buffer the spread of the kernel's first array. -/
theorem later_lin (W : Valuation τ sig (Elt F)) :
    StableHlo.after (later (F := F)).flatten W (Proc.devRef .tc main_v48)
      = spread (W (Proc.devRef .tc main_v5_0)) (W (Proc.devRef .tc main_arg1)) := by
  simp only [later, hostOps1, hostOps1_1, hostOps1_2, hostOps1_3, hostOps1_4, List.flatten_cons, List.flatten_nil, List.append_nil,
    List.cons_append, List.nil_append]
  after_results_simp <;> (try simp only [TRef.ofBuf, TRef.toBuf, cast_eq]) <;> (unfold spread; rfl)

set_option maxRecDepth 8192 in
set_option maxHeartbeats 40000000 in
/-- And in their second the spread of its second array. -/
theorem later_unit (W : Valuation τ sig (Elt F)) :
    StableHlo.after (later (F := F)).flatten W (Proc.devRef .tc main_v91)
      = spread (W (Proc.devRef .tc main_v5_1)) (W (Proc.devRef .tc main_arg1)) := by
  simp only [later, hostOps1, hostOps1_1, hostOps1_2, hostOps1_3, hostOps1_4, List.flatten_cons, List.flatten_nil, List.append_nil,
    List.cons_append, List.nil_append]
  after_results_simp <;> (try simp only [TRef.ofBuf, TRef.toBuf, cast_eq]) <;> (unfold spread; rfl)

variable (m : (ℓ : Loc nD τ sig) → Buf (Elt F) ℓ)

/-- After the whole program the first result buffer of the later lines holds the spread of what the kernel's first
    array ended at, over the launched edge list. -/
theorem out_lin (c : Dev nD) :
    Pipeline.afterTail₀ cfgs (dats m) 0 (V0 m) later c main_v48
      = spread ((dats m 0 c).arrAt 3 cfg0.N) (m ((c : Thread nD τ).loc main_arg1)) := by
  unfold Pipeline.afterTail₀
  rw [later_lin, Pipeline.withArrays_arr spec0 launch0.win.arr_inj c _ _ 3,
    Pipeline.withArrays_of_ne _ c (V0 m c) _ main_arg1 (by decide)]
  exact congrArg _ (V_arg1 m c)

/-- And the second the spread of the kernel's second array. -/
theorem out_unit (c : Dev nD) :
    Pipeline.afterTail₀ cfgs (dats m) 0 (V0 m) later c main_v91
      = spread ((dats m 0 c).arrAt 4 cfg0.N) (m ((c : Thread nD τ).loc main_arg1)) := by
  unfold Pipeline.afterTail₀
  rw [later_unit, Pipeline.withArrays_arr spec0 launch0.win.arr_inj c _ _ 4,
    Pipeline.withArrays_of_ne _ c (V0 m c) _ main_arg1 (by decide)]
  exact congrArg _ (V_arg1 m c)

end Cert.KernelIdeal.Spread

end
-- ==== Proof.RowSpec.lean ====
/-
  The two row-wise quantities both programs compute, over the extended reals.

  `lin x w b p q` is entry (p, q) of x · wᵀ + b: the sum over the 256 features k of x (p, k) · w (q, k), plus b q.
  `unit18 h q` is entry q of a row h of 64 numbers scaled to length 1.8: h q divided by the row's Euclidean length
  (the square root of the sum of its squares, floored at the small constant the programs share), times the constant
  the programs share for 1.8. Both constants stay the binary words the programs print; they are the same word on both
  sides and are never evaluated.
-/
import Idealize.ShloMosaic.PureOps.Ideal
import Idealize.ShloMosaic.Lib.ValueIdx

noncomputable section

namespace Cert.RowSpec

open Idealize.ShloMosaic Idealize.ShloMosaic.ValueIdx

/-- Entry (p, q) of x · wᵀ + b. -/
def lin (x : (⟨2, ![100000, 256]⟩ : Shape).Idx → EReal) (w : (⟨2, ![64, 256]⟩ : Shape).Idx → EReal)
    (b : (⟨1, ![64]⟩ : Shape).Idx → EReal) (p : Fin 100000) (q : Fin 64) : EReal :=
  (∑ k : Fin 256, x (ix2 p k) * w (ix2 q k)) + b (ix1 q)

/-- Entry q of the row h scaled to length 1.8 (its length floored at the shared small constant). -/
def unit18 (h : Fin 64 → EReal) (q : Fin 64) : EReal :=
  Ideal.div (h q) (max (Ideal.sqrt (∑ j : Fin 64, h j * h j)) (Ideal.ofBits .f32 0x2B8CBCCC#32))
    * Ideal.ofBits .f32 0x3FE66666#32

/-- Column q of the left half of a 128-wide row, -/
abbrev lo (q : Fin 64) : Fin 128 := ⟨q.val, by have := q.isLt; omega⟩
/-- and of the right half. -/
abbrev hi (q : Fin 64) : Fin 128 := ⟨64 + q.val, by have := q.isLt; omega⟩

end Cert.RowSpec

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KernelRows.lean ====
/-
  The kernel body's two stored values, read at an entry (r, q) of its block of 2000 rows, over the extended reals.

  The body forms the 2000 x 128 block x · w + b: the plain product of the 2000 x 256 block of x with the 256 x 128
  matrix w into the zero accumulator (each operand first passes through a change of format, the identity over the
  extended reals), plus the one-row b repeated down the rows. Entry (r, c) of it is the sum over the 256 features k of
  x (r, k) * w (k, c), plus b (0, c).

  * The first stored value is the left 64 columns of that block: its entry (r, q) is entry (r, lo q) of x · w + b.
  * The second is the right 64 columns with each row scaled to length 1.8: writing h j for entry (r, hi j) of
    x · w + b, its entry (r, q) is h q divided by the larger of the square root of the sum over j of h j * h j and the
    shared small constant, times the shared constant for 1.8. The sum of squares is the lane sum of the squared slice
    over its 64 columns; the recast of the 2000 sums to a column, and the spread of that column over 64 columns, read
    the same row r.
-/
import proofs.«100768_j48739288875184_1_alg».proof.Proof.Gen.KernelIdeal.Skeleton
import proofs.«100768_j48739288875184_1_alg».proof.Proof.RowSpec
import proofs.«100768_j48739288875184_1_alg».proof.Proof.LibPlainDot

noncomputable section

namespace Cert.KernelIdeal.Rows

open Cert.KernelIdeal Cert.KernelIdeal.Gen Idealize.ShloMosaic Idealize.ShloMosaic.ValueIdx Cert.RowSpec

/-- Entry (r, c) of the 2000 x 128 block the body forms: the sum over k of x (r, k) * w (k, c), plus b (0, c). -/
private theorem pay1_apply (x : Vec Ideal S2000x256 .f32) (w : Vec Ideal S256x128 .f32) (b : Vec Ideal S1x128 .f32)
    (r : Fin 2000) (c : Fin 128) :
    k0_pay1 (F := Ideal) x w b (ix2 r c)
      = (∑ k : Fin 256, x (ix2 r k) * w (ix2 k c)) + b (ix2 (0 : Fin 1) c) := by
  unfold k0_pay1
  rw [shapeCast_self, shapeCast_self]
  show matmul (F := Ideal) (DotDims.plain 2000 256 128) none _ _ _ (ix2 r c) + broadcastTo _ b _ (ix2 r c) = _
  rw [LibPlainDot.matmul_plain_apply, LibPlainDot.bcastRow_apply]
  rfl

/-- Entry (r, c) of x · w + b over the 128 columns. -/
private abbrev aff (x : Vec Ideal S2000x256 .f32) (w : Vec Ideal S256x128 .f32) (b : Vec Ideal S1x128 .f32)
    (r : Fin 2000) (c : Fin 128) : EReal :=
  (∑ k : Fin 256, x (ix2 r k) * w (ix2 k c)) + b (ix2 (0 : Fin 1) c)

/-- Entry (r, j) of the right 64 columns of x · w + b is its entry (r, hi j). -/
private theorem right_apply (x : Vec Ideal S2000x256 .f32) (w : Vec Ideal S256x128 .f32) (b : Vec Ideal S1x128 .f32)
    (r : Fin 2000) (j : Fin 64) :
    extractStridedSlice S2000x64 ![0, 64] (k0_pay1 (F := Ideal) x w b) Facts₀.slices_S2000x128_o0_64_S2000x64 (ix2 r j)
      = aff x w b r (hi j) := by
  refine (LibPlainDot.slice2_apply 0 64 (k0_pay1 (F := Ideal) x w b) _ r j (by have := r.isLt; omega)
    (by have := j.isLt; omega)).trans ?_
  exact (congrArg (k0_pay1 (F := Ideal) x w b) (congrArg₂ ix2 (Fin.ext (Nat.zero_add _)) rfl)).trans
    (pay1_apply x w b r (hi j))

/-- The lane sum of v * v over the 64 columns, read at row r: the sum over j of v (r, j) * v (r, j). -/
private theorem sumsq_apply (v : FVec Ideal S2000x64 .f32) (r : Fin 2000) :
    multiReduction (F := Ideal) .add [1] S2000 (mulf v v) 0x00000000#32 Facts₀.reduces_S2000x64_S2000 (.inl rfl) rfl (ix1 r)
      = ∑ j : Fin 64, v (ix2 r j) * v (ix2 r j) := by
  refine (Ideal.multiReduction_add_single (mulf v v) _ Facts₀.reduces_S2000x64_S2000 _ _ (ix1 r)).trans ?_
  refine Finset.sum_congr rfl fun j _ => ?_
  have e : Facts₀.reduces_S2000x64_S2000.lift (ix1 r) j = ix2 r j :=
    funext fun a => Fin.ext (by
      match a with
      | ⟨0, _⟩ => rfl
      | ⟨1, _⟩ => rfl)
  rw [e]; rfl

/-- 2000 numbers recast to a column, read at (r, 0): the r-th number. -/
private theorem col_apply {α : Type} (v : S2000.Idx → α) (h : S2000.ShapeCasts S2000x1) (r : Fin 2000) (z : Fin 1) :
    shapeCast S2000x1 v h (ix2 r z) = v (ix1 r) :=
  shapeCast_apply v h (ix2 r z) (ix1 r) (by
    rw [Shape.rowMajor_val_one, Shape.rowMajor_val_two]
    show r.val = r.val * 1 + z.val
    have := z.isLt; omega)

/-- A column of 2000 numbers spread over 64 columns, read at (r, q): the column's entry (r, 0). -/
private theorem spread_apply {α : Type} (v : S2000x1.Idx → α) (h : S2000x1.Broadcasts S2000x64) (r : Fin 2000) (q : Fin 64) :
    broadcastTo S2000x64 v h (ix2 r q) = v (ix2 r (0 : Fin 1)) :=
  broadcastTo_apply v h (ix2 r q) (ix2 r 0) (fun a => match a with
    | ⟨0, _⟩ => by show r.val = if (2000 : Nat) = 1 then 0 else r.val; rw [if_neg (by decide)]
    | ⟨1, _⟩ => by show (0 : Nat) = if (1 : Nat) = 1 then 0 else q.val; rw [if_pos rfl])

/-- A 2000 x 64 block V with each row scaled to length 1.8, as the body computes it, read at (r, q): the row r of V
    scaled as the specification scales it, read at q. -/
private theorem unit_apply (V : FVec Ideal S2000x64 .f32) (r : Fin 2000) (q : Fin 64) :
    mulf (divf V (broadcastTo S2000x64 (maximumf (sqrt (shapeCast S2000x1
        (multiReduction (F := Ideal) .add [1] S2000 (mulf V V) 0x00000000#32 Facts₀.reduces_S2000x64_S2000 (.inl rfl) rfl)
        Facts₀.shapeCasts_S2000_S2000x1)) (broadcast S2000x1 (Scalar.ofBits .f32 0x2B8CBCCC#32)))
        Facts₀.broadcasts_S2000x1_S2000x64)) (broadcast S2000x64 (Scalar.ofBits .f32 0x3FE66666#32)) (ix2 r q)
      = unit18 (fun j => V (ix2 r j)) q := by
  rw [mulf_apply, divf_apply, broadcast_apply, spread_apply, maximumf_apply, broadcast_apply]
  show Ideal.div (V (ix2 r q)) (max (Ideal.sqrt (shapeCast S2000x1 _ _ (ix2 r (0 : Fin 1)))) (Ideal.ofBits .f32 0x2B8CBCCC#32))
    * Ideal.ofBits .f32 0x3FE66666#32 = _
  rw [col_apply, sumsq_apply]
  rfl

theorem pay_lin (x : Vec Ideal S2000x256 .f32) (w : Vec Ideal S256x128 .f32) (b : Vec Ideal S1x128 .f32) (r : Fin 2000) (q : Fin 64) :
    k0_pay2 (F := Ideal) x w b (ix2 r q)
      = (∑ k : Fin 256, x (ix2 r k) * w (ix2 k (lo q))) + b (ix2 (0 : Fin 1) (lo q)) := by
  unfold k0_pay2
  refine (LibPlainDot.slice2_apply 0 0 (k0_pay1 (F := Ideal) x w b) _ r q (by have := r.isLt; omega)
    (by have := q.isLt; omega)).trans ?_
  exact (congrArg (k0_pay1 (F := Ideal) x w b)
    (congrArg₂ ix2 (Fin.ext (Nat.zero_add _)) (Fin.ext (Nat.zero_add _)))).trans (pay1_apply x w b r (lo q))

theorem pay_unit (x : Vec Ideal S2000x256 .f32) (w : Vec Ideal S256x128 .f32) (b : Vec Ideal S1x128 .f32) (r : Fin 2000) (q : Fin 64) :
    k0_pay3 (F := Ideal) x w b (ix2 r q)
      = RowSpec.unit18 (fun j => (∑ k : Fin 256, x (ix2 r k) * w (ix2 k (hi j))) + b (ix2 (0 : Fin 1) (hi j))) q := by
  unfold k0_pay3
  generalize hV : extractStridedSlice S2000x64 ![0, 64] (k0_pay1 (F := Ideal) x w b)
    Facts₀.slices_S2000x128_o0_64_S2000x64 = V
  refine (unit_apply V r q).trans ?_
  subst hV
  exact congrArg (fun h => RowSpec.unit18 h q) (funext fun j => right_apply x w b r j)

end Cert.KernelIdeal.Rows

end
-- ==== Proof.KernelWeights.lean ====
/-
  The joined weight matrix and the joined bias row, read at an entry.

  The kernel multiplies each row of the input by one 256 x 128 matrix: the two 64 x 256 weight matrices, each
  transposed to 256 x 64, laid side by side along the columns. Its entry (k, c) is therefore entry (c, k) of the first
  matrix when the column c lies in the left half (c = q < 64), and entry (c - 64, k) of the second when it lies in the
  right half (c = 64 + q). Likewise the bias it adds is one row of 128 numbers: the two 64-long biases joined end to end
  and given a leading axis of extent one, so its entry (0, c) is entry c of the first bias for c = q < 64 and entry
  c - 64 of the second for c = 64 + q.

  Each statement is two steps: the joined array read at a column on one side of the seam is the piece on that side
  read at the same coordinates (the column less 64 on the right); then the piece itself is read, the transpose by
  swapping the two coordinates, the added leading axis by dropping it. Nothing here depends on the arithmetic of
  the numbers stored: these are rearrangements of entries, true in every float family.
-/
import proofs.«100768_j48739288875184_1_alg».proof.Proof.Gen.KernelIdeal
import proofs.«100768_j48739288875184_1_alg».proof.Proof.RowSpec
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.ValueIdx Cert.RowSpec

variable {F : FTy → Type} [FloatOps F]

/-- The two 64 x 256 weight matrices transposed and laid side by side: a 256 x 128 matrix. -/
def wcat (a b : Vec F S64x256 .f32) : Vec F S256x128 .f32 :=
  concatenate S256x128 1 [⟨S256x64, transpose S256x64 [1, 0] a transposes_S64x256_S256x64_1_0⟩,
    ⟨S256x64, transpose S256x64 [1, 0] b transposes_S64x256_S256x64_1_0⟩] concatenates_S256x64_S256x64_S256x128_d1

/-- The two 64-long biases joined into one row of 128. -/
def bcat (a b : Vec F S64 .f32) : Vec F S1x128 .f32 :=
  broadcastInDim S1x128 ![1] bcast_S128_S1x128_1 (concatenate S128 0 [⟨S64, a⟩, ⟨S64, b⟩] concatenates_S64_S64_S128_d0)

theorem wcat_lo (a b : Vec F S64x256 .f32) (k : Fin 256) (q : Fin 64) : wcat a b (ix2 k (lo q)) = a (ix2 q k) := by
  unfold wcat
  refine (concatenate_pair_apply_left (1 : Fin S256x128.rank) _ _ concatenates_S256x64_S256x64_S256x128_d1
    (ix2 k (lo q)) rfl (ix2 k q) (fun c => match c with
      | ⟨0, _⟩ => rfl
      | ⟨1, _⟩ => rfl)).trans ?_
  exact transpose_apply [1, 0] a transposes_S64x256_S256x64_1_0 (ix2 k q) (ix2 q k) (fun c => match c with
    | ⟨0, _⟩ => rfl
    | ⟨1, _⟩ => rfl)
theorem wcat_hi (a b : Vec F S64x256 .f32) (k : Fin 256) (q : Fin 64) : wcat a b (ix2 k (hi q)) = b (ix2 q k) := by
  unfold wcat
  refine (concatenate_pair_apply_right (1 : Fin S256x128.rank) _ _ concatenates_S256x64_S256x64_S256x128_d1
    (ix2 k (hi q)) rfl rfl (ix2 k q) (fun c hc => match c, hc with
      | ⟨0, _⟩, _ => rfl
      | ⟨1, _⟩, hc => absurd rfl hc) ?_).trans ?_
  · show q.val + 64 = 64 + q.val
    omega
  · exact transpose_apply [1, 0] b transposes_S64x256_S256x64_1_0 (ix2 k q) (ix2 q k) (fun c => match c with
      | ⟨0, _⟩ => rfl
      | ⟨1, _⟩ => rfl)
theorem bcat_lo (a b : Vec F S64 .f32) (q : Fin 64) : bcat a b (ix2 (0 : Fin 1) (lo q)) = a (ix1 q) := by
  unfold bcat
  refine (broadcastInDim_apply _ bcast_S128_S1x128_1 _ (ix2 (0 : Fin 1) (lo q)) (ix1 (lo q)) (fun c => match c with
    | ⟨0, _⟩ => by show (lo q).val = if (128 : Nat) = 1 then 0 else (lo q).val; rw [if_neg (by decide)])).trans ?_
  exact concatenate_pair_apply_left (0 : Fin S128.rank) a b concatenates_S64_S64_S128_d0 (ix1 (lo q)) rfl (ix1 q)
    (fun c => match c with
      | ⟨0, _⟩ => rfl)
theorem bcat_hi (a b : Vec F S64 .f32) (q : Fin 64) : bcat a b (ix2 (0 : Fin 1) (hi q)) = b (ix1 q) := by
  unfold bcat
  refine (broadcastInDim_apply _ bcast_S128_S1x128_1 _ (ix2 (0 : Fin 1) (hi q)) (ix1 (hi q)) (fun c => match c with
    | ⟨0, _⟩ => by show (hi q).val = if (128 : Nat) = 1 then 0 else (hi q).val; rw [if_neg (by decide)])).trans ?_
  refine concatenate_pair_apply_right (0 : Fin S128.rank) a b concatenates_S64_S64_S128_d0 (ix1 (hi q)) rfl rfl (ix1 q)
    (fun c hc => match c, hc with
      | ⟨0, _⟩, hc => absurd rfl hc) ?_
  show q.val + 64 = 64 + q.val
  omega

end Cert.KernelIdeal.Weights

end
-- ==== Proof.RowArrays.lean ====
/-
  The two whole arrays, as functions of the arguments: `linArr x w b` is x · wᵀ + b entry by entry, `unitArr x w b` the same
  array with every row scaled to length 1.8.
-/
import proofs.«100768_j48739288875184_1_alg».proof.Proof.RowSpec

noncomputable section

namespace Cert.RowSpec

open Idealize.ShloMosaic Idealize.ShloMosaic.ValueIdx

/-- x · wᵀ + b, a 100000 x 64 array. -/
def linArr (x : (⟨2, ![100000, 256]⟩ : Shape).Idx → EReal) (w : (⟨2, ![64, 256]⟩ : Shape).Idx → EReal)
    (b : (⟨1, ![64]⟩ : Shape).Idx → EReal) : (⟨2, ![100000, 64]⟩ : Shape).Idx → EReal :=
  fun i => lin x w b (i 0) (i 1)

/-- The same array with every row scaled to length 1.8. -/
def unitArr (x : (⟨2, ![100000, 256]⟩ : Shape).Idx → EReal) (w : (⟨2, ![64, 256]⟩ : Shape).Idx → EReal)
    (b : (⟨1, ![64]⟩ : Shape).Idx → EReal) : (⟨2, ![100000, 64]⟩ : Shape).Idx → EReal :=
  fun i => unit18 (lin x w b (i 0)) (i 1)

end Cert.RowSpec

end
-- ==== Proof.KernelArrays.lean ====
/-
  What the kernel's two result arrays hold after all 50 grid points, as whole arrays.

  Grid point t writes rows 2000 t … 2000 t + 1999 of both results. Row r of its block reads row 2000 t + r of the node
  features, the whole side-by-side weight matrix and the whole bias row; so entry (p, q) of the first result is the
  sum over the 256 features of x (p, k) times column q of the weight matrix, plus entry q of the bias row, and row p of
  the second result is the same quantity over columns 64 … 127, scaled to length 1.8. Column q of the left half of the
  weight matrix is row q of the first weight argument, column 64 + q row q of the second, and likewise for the bias
  row: the two arrays are x · w1ᵀ + b1 and the scaled rows of x · w2ᵀ + b2. The 50 row blocks cover every index.
-/
import proofs.«100768_j48739288875184_1_alg».proof.Proof.KernelIdealAround
import proofs.«100768_j48739288875184_1_alg».proof.Proof.KernelRows
import proofs.«100768_j48739288875184_1_alg».proof.Proof.KernelWeights
import proofs.«100768_j48739288875184_1_alg».proof.Proof.RowArrays
import Idealize.ShloMosaic.Lib.Pipeline.Value
import Idealize.ShloMosaic.Lib.StableHlo.Run

set_option maxRecDepth 16384

noncomputable section

namespace Cert.KernelIdeal.Arrays

open Cert.KernelIdeal Cert.KernelIdeal.Gen Cert.KernelIdeal.Around Idealize.ShloMosaic Idealize.ShloMosaic.TcCoe Idealize.SL.Sem
open Idealize.ShloMosaic.ValueIdx Idealize.ShloMosaic.StableHlo Cert.RowSpec
open Idealize.ShloMosaic.Pipeline (Dat)

variable (m : (ℓ : Loc nD τ sig) → Buf (Elt Ideal) ℓ)

/-! ## The arrays the kernel reads, and its blocks of them -/

abbrev xarr (c : Dev nD) : Vec Ideal S100000x256 .f32 := V m c main_arg0
abbrev warr (c : Dev nD) : Vec Ideal S256x128 .f32 := V m c main_v2
abbrev barr (c : Dev nD) : Vec Ideal S1x128 .f32 := V m c main_v4
abbrev xblk (c : Dev nD) (t : Fin cfg0.N) : Vec Ideal S2000x256 .f32 := iblk m c 0 t
abbrev wblk (c : Dev nD) (t : Fin cfg0.N) : Vec Ideal S256x128 .f32 := iblk m c 1 t
abbrev bblk (c : Dev nD) (t : Fin cfg0.N) : Vec Ideal S1x128 .f32 := iblk m c 2 t

/-- The weight matrix the kernel reads is the two weight arguments transposed and laid side by side, -/
theorem warr_eq (c : Dev nD) : warr m c = Weights.wcat (m ((c : Thread nD τ).loc main_arg2)) (m ((c : Thread nD τ).loc main_arg4)) := by
  show StableHlo.after hostOps0 (fun b => m (c, b)) (Proc.devRef .tc main_v2) = _
  after_results
  rfl
/-- and its bias row the two bias arguments joined. -/
theorem barr_eq (c : Dev nD) : barr m c = Weights.bcat (m ((c : Thread nD τ).loc main_arg3)) (m ((c : Thread nD τ).loc main_arg5)) := by
  show StableHlo.after hostOps0 (fun b => m (c, b)) (Proc.devRef .tc main_v4) = _
  after_results
  rfl

/-- Where the five windows' blocks sit at grid point t: the row blocks at block row t, the weights and the bias whole. -/
theorem where_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem where_w : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem where_b : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem where_lin : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem where_unit : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem row_lt (t : Fin cfg0.N) (r : Fin 2000) : t.val * 2000 + r.val < 100000 := by
  have h1 := t.isLt; have h2 : cfg0.N = 50 := N_0; have h3 := r.isLt; omega

/-- Row r of the features block at point t is row 2000 t + r of the features. -/
theorem xblk_apply (c : Dev nD) (t : Fin cfg0.N) (r : Fin 2000) (k : Fin 256) :
    xblk m c t (ix2 r k) = xarr m c (ix2 ⟨t.val * 2000 + r.val, row_lt t r⟩ k) := by
  show V m c main_arg0 (((cfg0.win 0).blk t).view.emb (ix2 r k)) = V m c main_arg0 (ix2 ⟨t.val * 2000 + r.val, row_lt t r⟩ k)
  obtain ⟨e0, e1⟩ := where_x t
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 256 + 1 * k.val = k.val; omega
/-- The weights block is the whole weight matrix, -/
theorem wblk_apply (c : Dev nD) (t : Fin cfg0.N) (k : Fin 256) (j : Fin 128) : wblk m c t (ix2 k j) = warr m c (ix2 k j) := by
  show V m c main_v2 (((cfg0.win 1).blk t).view.emb (ix2 k j)) = V m c main_v2 (ix2 k j)
  obtain ⟨e0, e1⟩ := where_w t
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * j.val = j.val; omega
/-- and the bias block the whole bias row. -/
theorem bblk_apply (c : Dev nD) (t : Fin cfg0.N) (j : Fin 128) : bblk m c t (ix2 (0 : Fin 1) j) = barr m c (ix2 (0 : Fin 1) j) := by
  show V m c main_v4 (((cfg0.win 2).blk t).view.emb (ix2 (0 : Fin 1) j)) = V m c main_v4 (ix2 (0 : Fin 1) j)
  obtain ⟨e0, e1⟩ := where_b t
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * j.val = j.val; omega

/-! ## The two results as functions of the arrays read -/

theorem hz : (![0, 0] : Fin 2 → Nat) = fun _ => 0 := funext fun a => by fin_cases a <;> rfl

/-- Entry (p, q) of the first result, from the features, the weight matrix and the bias row the kernel reads. -/
def linOf (X : Vec Ideal S100000x256 .f32) (Wt : Vec Ideal S256x128 .f32) (Bt : Vec Ideal S1x128 .f32) (p : Fin 100000) (q : Fin 64) : EReal :=
  (∑ k : Fin 256, X (ix2 p k) * Wt (ix2 k (lo q))) + Bt (ix2 (0 : Fin 1) (lo q))
/-- Row p of the right half before it is scaled. -/
def rowOf (X : Vec Ideal S100000x256 .f32) (Wt : Vec Ideal S256x128 .f32) (Bt : Vec Ideal S1x128 .f32) (p : Fin 100000) (j : Fin 64) : EReal :=
  (∑ k : Fin 256, X (ix2 p k) * Wt (ix2 k (hi j))) + Bt (ix2 (0 : Fin 1) (hi j))

def linAll (X : Vec Ideal S100000x256 .f32) (Wt : Vec Ideal S256x128 .f32) (Bt : Vec Ideal S1x128 .f32) : Vec Ideal S100000x64 .f32 :=
  fun i => linOf X Wt Bt (i 0) (i 1)
def unitAll (X : Vec Ideal S100000x256 .f32) (Wt : Vec Ideal S256x128 .f32) (Bt : Vec Ideal S1x128 .f32) : Vec Ideal S100000x64 .f32 :=
  fun i => unit18 (rowOf X Wt Bt (i 0)) (i 1)

/-- The body's first stored value at (r, q) of the block at point t is `linOf` at row 2000 t + r. -/
theorem pay_lin_at (c : Dev nD) (t : Fin cfg0.N) (r : Fin 2000) (q : Fin 64) :
    k0_pay2 (F := Ideal) (xblk m c t) (wblk m c t) (bblk m c t) (ix2 r q)
      = linOf (xarr m c) (warr m c) (barr m c) ⟨t.val * 2000 + r.val, row_lt t r⟩ q := by
  rw [Rows.pay_lin]
  unfold linOf
  simp only [xblk_apply, wblk_apply, bblk_apply]
/-- The second at (r, q): row 2000 t + r of the right half, scaled. -/
theorem pay_unit_at (c : Dev nD) (t : Fin cfg0.N) (r : Fin 2000) (q : Fin 64) :
    k0_pay3 (F := Ideal) (xblk m c t) (wblk m c t) (bblk m c t) (ix2 r q)
      = unit18 (rowOf (xarr m c) (warr m c) (barr m c) ⟨t.val * 2000 + r.val, row_lt t r⟩) q := by
  rw [Rows.pay_unit]
  refine congrArg (fun h => unit18 h q) (funext fun j => ?_)
  unfold rowOf
  simp only [xblk_apply, wblk_apply, bblk_apply]

/-- The array index of entry j of a result block at point t: row 2000 t + j₀, column j₁. -/
theorem emb_lin (t : Fin cfg0.N) (j : S2000x64.Idx) :
    ((cfg0.win 3).blk t).view.emb j = ix2 ⟨t.val * 2000 + (j 0).val, row_lt t (j 0)⟩ (j 1) := by
  obtain ⟨e0, e1⟩ := where_lin t
  refine funext fun a => Fin.ext ?_
  match a with
  | ⟨0, _⟩ => show win0_3.index t (0 : Fin 2) * 2000 + 1 * (j 0).val = t.val * 2000 + (j 0).val; omega
  | ⟨1, _⟩ => show win0_3.index t (1 : Fin 2) * 64 + 1 * (j 1).val = (j 1).val; omega
theorem emb_unit (t : Fin cfg0.N) (j : S2000x64.Idx) :
    ((cfg0.win 4).blk t).view.emb j = ix2 ⟨t.val * 2000 + (j 0).val, row_lt t (j 0)⟩ (j 1) := by
  obtain ⟨e0, e1⟩ := where_unit t
  refine funext fun a => Fin.ext ?_
  match a with
  | ⟨0, _⟩ => show win0_4.index t (0 : Fin 2) * 2000 + 1 * (j 0).val = t.val * 2000 + (j 0).val; omega
  | ⟨1, _⟩ => show win0_4.index t (1 : Fin 2) * 64 + 1 * (j 1).val = (j 1).val; omega

/-- What point t writes back to the first result is block t of `linAll`. -/
theorem flushed_lin (c : Dev nD) (t : Fin cfg0.N) :
    (dats m 0 c).flushed 3 t = ((cfg0.win 3).blk t).view.read (Elt Ideal) (linAll (xarr m c) (warr m c) (barr m c)) := by
  show (cfg0.win 3).cut (grid0.coords t) ((dats m 0 c).after 3 t) = _
  rw [after_lin]
  unfold outLin
  rw [View.canon_unit_zero hz]
  simp only [View.ld_unit_zero (S := S2000x256) hz, View.ld_unit_zero (S := S256x128) hz, View.ld_unit_zero (S := S1x128) hz]
  funext j
  show k0_pay2 (F := Ideal) (xblk m c t) (wblk m c t) (bblk m c t) j = linAll (xarr m c) (warr m c) (barr m c) (((cfg0.win 3).blk t).view.emb j)
  rw [emb_lin t j]
  exact (congrArg (k0_pay2 (F := Ideal) (xblk m c t) (wblk m c t) (bblk m c t)) (eq_ix2 j)).trans (pay_lin_at m c t (j 0) (j 1))

/-- And to the second, block t of `unitAll`. -/
theorem flushed_unit (c : Dev nD) (t : Fin cfg0.N) :
    (dats m 0 c).flushed 4 t = ((cfg0.win 4).blk t).view.read (Elt Ideal) (unitAll (xarr m c) (warr m c) (barr m c)) := by
  show (cfg0.win 4).cut (grid0.coords t) ((dats m 0 c).after 4 t) = _
  rw [after_unit]
  unfold outUnit
  rw [View.canon_unit_zero hz]
  simp only [View.ld_unit_zero (S := S2000x256) hz, View.ld_unit_zero (S := S256x128) hz, View.ld_unit_zero (S := S1x128) hz]
  funext j
  show k0_pay3 (F := Ideal) (xblk m c t) (wblk m c t) (bblk m c t) j = unitAll (xarr m c) (warr m c) (barr m c) (((cfg0.win 4).blk t).view.emb j)
  rw [emb_unit t j]
  exact (congrArg (k0_pay3 (F := Ideal) (xblk m c t) (wblk m c t) (bblk m c t)) (eq_ix2 j)).trans (pay_unit_at m c t (j 0) (j 1))

/-! ## The 50 row blocks cover the results -/

theorem mem_blk_lin (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v5_0).slice (win0_3.rect t)).set ↔ _
  rw [View.set_slice_whole, Rect.mem_set_unit]
  exact Iff.rfl
theorem mem_blk_unit (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v5_1).slice (win0_4.rect t)).set ↔ _
  rw [View.set_slice_whole, Rect.mem_set_unit]
  exact Iff.rfl

/-- Row p lies in the block of point p / 2000. -/
theorem point_of (i : S100000x64.Idx) : ∃ t : Fin cfg0.N, t.val = (i 0).val / 2000 := by
  have hi0 : (i 0).val < 100000 := (i 0).isLt
  have hN : cfg0.N = 50 := N_0
  exact ⟨⟨(i 0).val / 2000, by omega⟩, rfl⟩

theorem cover_lin (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := point_of i
  obtain ⟨e0, e1⟩ := where_lin t
  refine ⟨t, flush0_3 t, ?_⟩
  rw [mem_blk_lin]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega
theorem cover_unit (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := point_of i
  obtain ⟨e0, e1⟩ := where_unit t
  refine ⟨t, flush0_4 t, ?_⟩
  rw [mem_blk_unit]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 64 ≤ (i 1).val ∧ (i 1).val < win0_4.index t (1 : Fin 2) * 64 + 64; omega

/-! ## The two arrays -/

/-- Over the joined weights and bias, the left half is x · w1ᵀ + b1 -/
theorem linOf_joined (x : Vec Ideal S100000x256 .f32) (w1 w2 : Vec Ideal S64x256 .f32) (b1 b2 : Vec Ideal S64 .f32) (p : Fin 100000) (q : Fin 64) :
    linOf x (Weights.wcat w1 w2) (Weights.bcat b1 b2) p q = lin x w1 b1 p q := by
  unfold linOf lin
  simp only [Weights.wcat_lo, Weights.bcat_lo]
/-- and the right half x · w2ᵀ + b2. -/
theorem rowOf_joined (x : Vec Ideal S100000x256 .f32) (w1 w2 : Vec Ideal S64x256 .f32) (b1 b2 : Vec Ideal S64 .f32) (p : Fin 100000) (q : Fin 64) :
    rowOf x (Weights.wcat w1 w2) (Weights.bcat b1 b2) p q = lin x w2 b2 p q := by
  unfold rowOf lin
  simp only [Weights.wcat_hi, Weights.bcat_hi]

/-- The kernel's first result array ends at x · w1ᵀ + b1. -/
theorem arr_lin (c : Dev nD) :
    (dats m 0 c).arrAt 3 cfg0.N = linArr (m ((c : Thread nD τ).loc main_arg0)) (m ((c : Thread nD τ).loc main_arg2)) (m ((c : Thread nD τ).loc main_arg3)) := by
  rw [(dats m 0 c).arrAt_eq_of_cover 3 (linAll (xarr m c) (warr m c) (barr m c)) (fun t _ => flushed_lin m c t) cover_lin]
  funext i
  show linOf (xarr m c) (warr m c) (barr m c) (i 0) (i 1) = lin _ _ _ (i 0) (i 1)
  rw [warr_eq, barr_eq, show xarr m c = m ((c : Thread nD τ).loc main_arg0) from V_arg0 m c]
  exact linOf_joined _ _ _ _ _ _ _

/-- And its second at the rows of x · w2ᵀ + b2 scaled to length 1.8. -/
theorem arr_unit (c : Dev nD) :
    (dats m 0 c).arrAt 4 cfg0.N = unitArr (m ((c : Thread nD τ).loc main_arg0)) (m ((c : Thread nD τ).loc main_arg4)) (m ((c : Thread nD τ).loc main_arg5)) := by
  rw [(dats m 0 c).arrAt_eq_of_cover 4 (unitAll (xarr m c) (warr m c) (barr m c)) (fun t _ => flushed_unit m c t) cover_unit]
  funext i
  show unit18 (rowOf (xarr m c) (warr m c) (barr m c) (i 0)) (i 1) = unit18 (lin _ _ _ (i 0)) (i 1)
  rw [warr_eq, barr_eq, show xarr m c = m ((c : Thread nD τ).loc main_arg0) from V_arg0 m c]
  exact congrArg (fun h => unit18 h (i 1)) (funext fun j => rowOf_joined _ _ _ _ _ _ _)

end Cert.KernelIdeal.Arrays

end
-- ==== Proof.KernelResults.lean ====
/-
  The idealized kernel program's run, with its two results named: the first value it returns is the propagation step
  applied to the rows of x · w2ᵀ + b2 scaled to length 1.8, the second the step applied to x · w1ᵀ + b1, both over the
  launched edge list; the six arguments end as launched.
-/
import proofs.«100768_j48739288875184_1_alg».proof.Proof.KernelSpread
import proofs.«100768_j48739288875184_1_alg».proof.Proof.KernelArrays

noncomputable section

namespace Cert.KernelIdeal.Results

open Cert.KernelIdeal Cert.KernelIdeal.Gen Cert.KernelIdeal.Around Idealize.ShloMosaic Idealize.ShloMosaic.TcCoe Idealize.SL.Sem Cert.RowSpec

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v91)
        = Spread.spread (F := Ideal) (unitArr (m ((c.tc : Thread nD τ).loc main_arg0)) (m ((c.tc : Thread nD τ).loc main_arg4)) (m ((c.tc : Thread nD τ).loc main_arg5)))
            (m ((c.tc : Thread nD τ).loc main_arg1))
      ∧ r.2.mem ((c.tc : Thread nD τ).loc main_v48)
        = Spread.spread (F := Ideal) (linArr (m ((c.tc : Thread nD τ).loc main_arg0)) (m ((c.tc : Thread nD τ).loc main_arg2)) (m ((c.tc : Thread nD τ).loc main_arg3)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(((h c).2 main_v91 (Pipeline.mem_restRefs_of main_v91 (by decide) (by decide))).trans (Spread.out_unit m c)).trans
        (congrArg (fun a => Spread.spread (F := Ideal) a (m ((c.tc : Thread nD τ).loc main_arg1))) (Arrays.arr_unit m c)),
     (((h c).2 main_v48 (Pipeline.mem_restRefs_of main_v48 (by decide) (by decide))).trans (Spread.out_lin m c)).trans
        (congrArg (fun a => Spread.spread (F := Ideal) a (m ((c.tc : Thread nD τ).loc main_arg1))) (Arrays.arr_lin m c)),
     ((h c).1 0).trans (((dats m 0 c).arrAt_in 0 rfl _).trans ((A_eq m c 0).trans (V_arg0 m c))),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c),
     ((h c).2 main_arg4 (Pipeline.mem_restRefs_of main_arg4 (by decide) (by decide))).trans (W_arg4 m (dats m) c),
     ((h c).2 main_arg5 (Pipeline.mem_restRefs_of main_arg5 (by decide) (by decide))).trans (W_arg5 m (dats m) c)⟩) (run_main m ρ)

end Cert.KernelIdeal.Results

end
-- ==== Proof.RefSpread.lean ====
/-
  The reference's two results are one and the same propagation step applied to its two projected arrays: the first
  result spreads x · w1ᵀ + b1 over the graph, the second spreads the rows of x · w2ᵀ + b2 scaled to length 1.8. The step
  itself is never opened: it is carried as one function of the array it spreads and of the edge list.
-/
import proofs.«100768_j48739288875184_1_alg».proof.Proof.RefReadP

noncomputable section

namespace Cert.ReferenceIdeal.Spread

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- One propagation step over the graph with self-loops: every node's degree is counted (a scatter-add of ones over the
    edge targets and the nodes themselves), its inverse square root taken where the degree is positive, each edge's
    message is the source row of `h` scaled by the two ends' factors, and the messages are summed into their target rows.
    `e` is the 2 x E edge list; a negative index is first wrapped by the number of nodes. -/
def spread (h : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x64_S1700000x1_S1700000x64_1_0_n_n_0_1_164 h (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (constant S_ .f32 0x00000000#32))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (constant S_ .f32 0x00000000#32))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))

set_option maxRecDepth 8192 in
/-- The second value the reference returns: the spread of x · w1ᵀ + b1. -/
theorem res_lin (m : (ℓ : Loc nD τ sig) → Buf (Elt F) ℓ) (c : Dev nD) :
    ValueP.res_main_v47 m c = spread (ReadP.val_main_v4 (F := F) (m ((c.tc : Thread nD τ).loc main_arg0)) (m ((c.tc : Thread nD τ).loc main_arg2)) (m ((c.tc : Thread nD τ).loc main_arg3)))
      (m ((c.tc : Thread nD τ).loc main_arg1)) := by
  unfold ValueP.res_main_v47 spread; rfl

set_option maxRecDepth 8192 in
/-- The first value it returns: the spread of the scaled rows of x · w2ᵀ + b2. -/
theorem res_unit (m : (ℓ : Loc nD τ sig) → Buf (Elt F) ℓ) (c : Dev nD) :
    ValueP.res_main_v102 m c = spread (ReadP.val_main_v59 (F := F) (m ((c.tc : Thread nD τ).loc main_arg0)) (m ((c.tc : Thread nD τ).loc main_arg4)) (m ((c.tc : Thread nD τ).loc main_arg5)))
      (m ((c.tc : Thread nD τ).loc main_arg1)) := by
  unfold ValueP.res_main_v102 spread; rfl

end Cert.ReferenceIdeal.Spread

end
-- ==== Proof.RefRows.lean ====
/-
  The reference's three arrays, read at an entry (p, q).

  The first and second linear layers are x · wᵀ + b: the product's entry (p, q) is the sum over the 256 features k of
  x (p, k) times the transposed weight at (k, q), which is w (q, k); the bias, a row of 64 numbers, is repeated down the
  100000 rows, so its entry at (p, q) is b q. Hence both layers at (p, q) are `RowSpec.lin`.

  The normalised array divides the second layer's entry (p, q) by the length of its row p and multiplies by the constant
  for 1.8. The length of row p is the square root of zero plus the sum over the 64 columns j of the square of entry
  (p, j), floored at the small constant; it is one number per row, repeated across the 64 columns. With the second layer
  read as `RowSpec.lin`, this is `RowSpec.unit18` of that row. The two constants stay the binary words they are printed as.
-/
import proofs.«100768_j48739288875184_1_alg».proof.Proof.RefReadP
import proofs.«100768_j48739288875184_1_alg».proof.Proof.RowSpec

noncomputable section

namespace Cert.ReferenceIdeal.Rows

open Cert.ReferenceIdeal Cert.ReferenceIdeal.Gen Idealize.ShloMosaic Idealize.ShloMosaic.ValueIdx

/-- The left factor of the first product at entry (p, q), feature k, is read at (p, k). -/
private theorem lidx1_eq (p : Fin 100000) (q : Fin 64) (k : Fin 256) :
    ReadP.lidx_main_v1 (ix2 p q) k = ix2 p k :=
  funext fun a => Fin.ext (by match a with | ⟨0, _⟩ => rfl | ⟨1, _⟩ => rfl)

/-- The transposed first weight at (k, q) is the weight at (q, k). -/
private theorem ridx1_eq (p : Fin 100000) (q : Fin 64) (k : Fin 256) :
    ReadP.idx_main_v0 (ReadP.ridx_main_v1 (ix2 p q) k) = ix2 q k :=
  funext fun a => Fin.ext (by match a with | ⟨0, _⟩ => rfl | ⟨1, _⟩ => rfl)

/-- The first bias, repeated down the rows, is read at q. -/
private theorem bidx1_eq (p : Fin 100000) (q : Fin 64) :
    ReadP.idx_main_v2 (ReadP.idx_main_v3 (ix2 p q)) = ix1 q :=
  funext fun a => Fin.ext (by match a with | ⟨0, _⟩ => rfl)

/-- The left factor of the second product at entry (p, q), feature k, is read at (p, k). -/
private theorem lidx2_eq (p : Fin 100000) (q : Fin 64) (k : Fin 256) :
    ReadP.lidx_main_v49 (ix2 p q) k = ix2 p k :=
  funext fun a => Fin.ext (by match a with | ⟨0, _⟩ => rfl | ⟨1, _⟩ => rfl)

/-- The transposed second weight at (k, q) is the weight at (q, k). -/
private theorem ridx2_eq (p : Fin 100000) (q : Fin 64) (k : Fin 256) :
    ReadP.idx_main_v48 (ReadP.ridx_main_v49 (ix2 p q) k) = ix2 q k :=
  funext fun a => Fin.ext (by match a with | ⟨0, _⟩ => rfl | ⟨1, _⟩ => rfl)

/-- The second bias, repeated down the rows, is read at q. -/
private theorem bidx2_eq (p : Fin 100000) (q : Fin 64) :
    ReadP.idx_main_v50 (ReadP.idx_main_v51 (ix2 p q)) = ix1 q :=
  funext fun a => Fin.ext (by match a with | ⟨0, _⟩ => rfl)

/-- The row length used at entry (p, q) sums the squares of row p: its term j is read at (p, j). -/
private theorem nidx_eq (p : Fin 100000) (q : Fin 64) (j : Fin 64) :
    ReadP.idx_main_call1_v1 (ReadP.idx_main_call1_v2 (ReadP.idx_main_v56 (ix2 p q))) j = ix2 p j :=
  funext fun a => Fin.ext (by match a with | ⟨0, _⟩ => rfl | ⟨1, _⟩ => rfl)

theorem lin1_apply (x0 : (⟨S100000x256, .f32⟩ : BufTy).Contents (Elt Ideal)) (x2 : (⟨S64x256, .f32⟩ : BufTy).Contents (Elt Ideal))
    (x3 : (⟨S64, .f32⟩ : BufTy).Contents (Elt Ideal)) (p : Fin 100000) (q : Fin 64) :
    ReadP.val_main_v4 (F := Ideal) x0 x2 x3 (ix2 p q) = RowSpec.lin x0 x2 x3 p q := by
  rw [ReadP.val_main_v4_apply, ReadP.val_main_v1_apply, ReadP.val_main_v3_apply, ReadP.val_main_v2_apply]
  simp only [ReadP.val_main_v0_apply, lidx1_eq, ridx1_eq, bidx1_eq, Ideal.addf_def]
  rfl

theorem lin2_apply (x0 : (⟨S100000x256, .f32⟩ : BufTy).Contents (Elt Ideal)) (x4 : (⟨S64x256, .f32⟩ : BufTy).Contents (Elt Ideal))
    (x5 : (⟨S64, .f32⟩ : BufTy).Contents (Elt Ideal)) (p : Fin 100000) (q : Fin 64) :
    ReadP.val_main_v52 (F := Ideal) x0 x4 x5 (ix2 p q) = RowSpec.lin x0 x4 x5 p q := by
  rw [ReadP.val_main_v52_apply, ReadP.val_main_v49_apply, ReadP.val_main_v51_apply, ReadP.val_main_v50_apply]
  simp only [ReadP.val_main_v48_apply, lidx2_eq, ridx2_eq, bidx2_eq, Ideal.addf_def]
  rfl

theorem unit_apply (x0 : (⟨S100000x256, .f32⟩ : BufTy).Contents (Elt Ideal)) (x4 : (⟨S64x256, .f32⟩ : BufTy).Contents (Elt Ideal))
    (x5 : (⟨S64, .f32⟩ : BufTy).Contents (Elt Ideal)) (p : Fin 100000) (q : Fin 64) :
    ReadP.val_main_v59 (F := Ideal) x0 x4 x5 (ix2 p q) = RowSpec.unit18 (RowSpec.lin x0 x4 x5 p) q := by
  rw [ReadP.val_main_v59_apply, ReadP.val_main_v57_apply, ReadP.val_main_v58_apply, ReadP.val_main_cst_10_apply,
    ReadP.val_main_v56_apply, ReadP.val_main_v55_apply, ReadP.val_main_v53_apply, ReadP.val_main_v54_apply,
    ReadP.val_main_cst_9_apply, ReadP.val_main_call1_v2_apply, ReadP.val_main_call1_v1_apply,
    ReadP.val_main_call1_cst_apply]
  simp only [ReadP.val_main_call1_v0_apply, nidx_eq, lin2_apply, Ideal.mulf_def, Ideal.hostDivf_def, Ideal.maximumf_def,
    Ideal.hostUnary_sqrt_def, Ideal.ofBits_def, Ideal.ofBits_zero_f32, zero_add]
  rfl

end Cert.ReferenceIdeal.Rows

end
-- ==== Proof.Bridge.lean ====
/-
  Where the two programs meet. Both end with the same propagation step over the graph, applied on one side to the
  arrays the kernel wrote and on the other to the arrays the reference computed on the host; the step is one function
  of the array it spreads and of the edge list, the same on both sides, so equal arrays give equal results. The arrays
  are equal entry by entry: x · w1ᵀ + b1, and the rows of x · w2ᵀ + b2 scaled to length 1.8.
-/
import proofs.«100768_j48739288875184_1_alg».proof.Proof.KernelSpread
import proofs.«100768_j48739288875184_1_alg».proof.Proof.RefSpread
import proofs.«100768_j48739288875184_1_alg».proof.Proof.RefRows
import proofs.«100768_j48739288875184_1_alg».proof.Proof.RowArrays

noncomputable section

namespace Cert.Bridge

open Idealize.ShloMosaic Idealize.ShloMosaic.ValueIdx Cert.RowSpec

set_option maxRecDepth 16384 in
/-- The propagation step printed in the kernel's program and the one printed in the reference are one function. -/
theorem spread_same {F : FTy → Type} [FloatOps F]
    (h : (⟨Cert.ReferenceIdeal.S100000x64, .f32⟩ : BufTy).Contents (Elt F)) (e : (⟨Cert.ReferenceIdeal.S2x1600000, .i32⟩ : BufTy).Contents (Elt F)) :
    Cert.KernelIdeal.Spread.spread (F := F) h e = Cert.ReferenceIdeal.Spread.spread (F := F) h e := by
  unfold Cert.KernelIdeal.Spread.spread Cert.ReferenceIdeal.Spread.spread
  rfl

/-- The reference's first projected array is x · w1ᵀ + b1, -/
theorem ref_lin (x0 : (⟨Cert.ReferenceIdeal.S100000x256, .f32⟩ : BufTy).Contents (Elt Ideal)) (x2 : (⟨Cert.ReferenceIdeal.S64x256, .f32⟩ : BufTy).Contents (Elt Ideal))
    (x3 : (⟨Cert.ReferenceIdeal.S64, .f32⟩ : BufTy).Contents (Elt Ideal)) :
    Cert.ReferenceIdeal.ReadP.val_main_v4 (F := Ideal) x0 x2 x3 = linArr x0 x2 x3 :=
  funext fun i => (congrArg (Cert.ReferenceIdeal.ReadP.val_main_v4 (F := Ideal) x0 x2 x3) (eq_ix2 i)).trans
    (Cert.ReferenceIdeal.Rows.lin1_apply x0 x2 x3 (i 0) (i 1))

/-- and its second the rows of x · w2ᵀ + b2 scaled to length 1.8. -/
theorem ref_unit (x0 : (⟨Cert.ReferenceIdeal.S100000x256, .f32⟩ : BufTy).Contents (Elt Ideal)) (x4 : (⟨Cert.ReferenceIdeal.S64x256, .f32⟩ : BufTy).Contents (Elt Ideal))
    (x5 : (⟨Cert.ReferenceIdeal.S64, .f32⟩ : BufTy).Contents (Elt Ideal)) :
    Cert.ReferenceIdeal.ReadP.val_main_v59 (F := Ideal) x0 x4 x5 = unitArr x0 x4 x5 :=
  funext fun i => (congrArg (Cert.ReferenceIdeal.ReadP.val_main_v59 (F := Ideal) x0 x4 x5) (eq_ix2 i)).trans
    (Cert.ReferenceIdeal.Rows.unit_apply x0 x4 x5 (i 0) (i 1))

end Cert.Bridge

end
-- ==== Proof.lean ====
/-
  The certificate of the fused projection kernel against its reference.

  The kernel program multiplies the node features once by the two weight matrices laid side by side, adds the joined
  bias, keeps the left half as the first projection and scales each row of the right half to length 1.8, and then
  spreads both over the graph on the host; the reference computes the two projections separately on the host, scales
  the rows of the second the same way, and spreads both with the same host lines. Over the extended reals a change of
  float format is the identity and a product into the zero accumulator is the plain sum, so entry by entry the kernel's
  two arrays are x · w1ᵀ + b1 and the scaled rows of x · w2ᵀ + b2, exactly the reference's: only the arrangement of the
  weights differs, and no law beyond reading the rearranged entries is used (finiteness of the inputs is never opened).
  The propagation step is the same function on both sides and is never opened. The host gather and scatter are total
  functions of whatever indices the edge list holds, so all three programs run for every edge list, and each leaves
  its six arguments as launched.
-/
import proofs.«100768_j48739288875184_1_alg».proof.Defs
import proofs.«100768_j48739288875184_1_alg».proof.Proof.Gen.Kernel
import proofs.«100768_j48739288875184_1_alg».proof.Proof.Gen.KernelIdeal
import proofs.«100768_j48739288875184_1_alg».proof.Proof.Gen.ReferenceIdeal
import proofs.«100768_j48739288875184_1_alg».proof.Proof.Gen.Pre_finite_inputs
import proofs.«100768_j48739288875184_1_alg».proof.Proof.KernelAround
import proofs.«100768_j48739288875184_1_alg».proof.Proof.KernelResults
import proofs.«100768_j48739288875184_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Around.frame m ρ

/-- So does the idealized one. -/
theorem frame_kernelIdeal : Cert.frame_KernelIdeal := fun m ρ _ => Cert.KernelIdeal.Around.frame m ρ

/-- And the reference: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- From memories that agree on the arguments both idealized programs end with the same two results: each is the
    propagation step applied to the same array over the same edge list. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun r h c => ?_) (Cert.ReferenceIdeal.ValueP.run (F := Ideal) m' ρ')
  obtain ⟨a0, a1, a2, a3, a4, a5⟩ := hagree c
  obtain ⟨h0, h1, hrest⟩ := h c
  refine ⟨h0.trans ?_, h1.trans ?_, hrest⟩
  · rw [Cert.ReferenceIdeal.Spread.res_unit, a0, a1, a4, a5, Cert.Bridge.ref_unit, ← Cert.Bridge.spread_same]
  · rw [Cert.ReferenceIdeal.Spread.res_lin, a0, a1, a2, a3, Cert.Bridge.ref_lin, ← Cert.Bridge.spread_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
